-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768x32x32 : Shape := ⟨4, ![64, 768, 32, 32]⟩
abbrev S100x768 : Shape := ⟨2, ![100, 768]⟩
abbrev S_ : Shape := ⟨0, ![]⟩

class Facts : Prop where
  bcast_S_S64x768x32x32 : S_.BroadcastsInDim S64x768x32x32 (![] : Fin 0 → Fin S64x768x32x32.rank)
  reducesTo_S64x768x32x32_S_d0_1_2_3 : S64x768x32x32.ReducesTo [0, 1, 2, 3] S_
  h_S_ : 0 < S_.numel
  bcast_S_S100x768 : S_.BroadcastsInDim S100x768 (![] : Fin 0 → Fin S100x768.rank)
  reducesTo_S100x768_S_d0_1 : S100x768.ReducesTo [0, 1] S_

variable [Facts]

def fn {F : FTy → Type} [FloatOps F] (main_arg0 : FVec F S64x768x32x32 .f32) (main_arg1 : FVec F S100x768 .f32) : IVec S_ 1 :=
  let main_v0 : FVec F S64x768x32x32 .f32 := Host.absf main_arg0
  let main_cst : FVec F S_ .f32 := constant S_ .f32 0x7F800000#32
  let main_v1 : FVec F S64x768x32x32 .f32 := broadcastInDim S64x768x32x32 ![] bcast_S_S64x768x32x32 main_cst
  let main_v2 : IVec S64x768x32x32 1 := cmpf .olt main_v0 main_v1
  let main_c : IVec S_ 1 := constantI S_ 1 1#1
  let main_v3 : IVec S_ 1 := (fun x v => Host.reduce IntOp.andi x v reducesTo_S64x768x32x32_S_d0_1_2_3 h_S_) main_v2 main_c
  let main_v4 : FVec F S100x768 .f32 := Host.absf main_arg1
  let main_cst_0 : FVec F S_ .f32 := constant S_ .f32 0x7F800000#32
  let main_v5 : FVec F S100x768 .f32 := broadcastInDim S100x768 ![] bcast_S_S100x768 main_cst_0
  let main_v6 : IVec S100x768 1 := cmpf .olt main_v4 main_v5
  let main_c_1 : IVec S_ 1 := constantI S_ 1 1#1
  let main_v7 : IVec S_ 1 := (fun x v => Host.reduce IntOp.andi x v reducesTo_S100x768_S_d0_1 h_S_) main_v6 main_c_1
  let main_v8 : IVec S_ 1 := andi main_v3 main_v7
  main_v8
-- ==== Kernel.lean ====
abbrev S64x768x32x32 : Shape := ⟨4, ![64, 768, 32, 32]⟩
abbrev S100x768 : Shape := ⟨2, ![100, 768]⟩
abbrev S64x768x1024 : Shape := ⟨3, ![64, 768, 1024]⟩
abbrev S_ : Shape := ⟨0, ![]⟩
abbrev S100 : Shape := ⟨1, ![100]⟩
abbrev S100x1 : Shape := ⟨2, ![100, 1]⟩
abbrev S768x100 : Shape := ⟨2, ![768, 100]⟩
abbrev S64x1024x100 : Shape := ⟨3, ![64, 1024, 100]⟩
abbrev S1x768x1024 : Shape := ⟨3, ![1, 768, 1024]⟩
abbrev S1x1024x100 : Shape := ⟨3, ![1, 1024, 100]⟩
abbrev S768x1024 : Shape := ⟨2, ![768, 1024]⟩
abbrev S1024 : Shape := ⟨1, ![1024]⟩
abbrev S1x1024 : Shape := ⟨2, ![1, 1024]⟩
abbrev S100x1024 : Shape := ⟨2, ![100, 1024]⟩
abbrev S1024x100 : Shape := ⟨2, ![1024, 100]⟩

abbrev nBuf : Space → Nat
  | .hbm => 17
  | .vmem => 8
  | .smem => 0
  | _ => 0

abbrev bufTy : (tb : Table) → Fin (tcTables nBuf tb) → BufTy
  | .hbm, ⟨0, _⟩ => ⟨S64x768x32x32, .f32⟩
  | .hbm, ⟨1, _⟩ => ⟨S100x768, .f32⟩
  | .hbm, ⟨2, _⟩ => ⟨S64x768x1024, .f32⟩
  | .hbm, ⟨3, _⟩ => ⟨S100x768, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x1, .f32⟩
  | .hbm, ⟨8, _⟩ => ⟨S_, .f32⟩
  | .hbm, ⟨9, _⟩ => ⟨S100x1, .f32⟩
  | .hbm, ⟨10, _⟩ => ⟨S100x1, .f32⟩
  | .hbm, ⟨11, _⟩ => ⟨S100x768, .f32⟩
  | .hbm, ⟨12, _⟩ => ⟨S100x768, .f32⟩
  | .hbm, ⟨13, _⟩ => ⟨S768x100, .f32⟩
  | .hbm, ⟨14, _⟩ => ⟨S64x768x1024, .f32⟩
  | .hbm, ⟨15, _⟩ => ⟨S64x1024x100, .f32⟩
  | .hbm, ⟨16, _⟩ => ⟨S64x768x32x32, .f32⟩
  | .local _ .vmem, ⟨0, _⟩ => ⟨S1x768x1024, .f32⟩
  | .local _ .vmem, ⟨1, _⟩ => ⟨S1x768x1024, .f32⟩
  | .local _ .vmem, ⟨2, _⟩ => ⟨S100x768, .f32⟩
  | .local _ .vmem, ⟨3, _⟩ => ⟨S768x100, .f32⟩
  | .local _ .vmem, ⟨4, _⟩ => ⟨S1x768x1024, .f32⟩
  | .local _ .vmem, ⟨5, _⟩ => ⟨S1x768x1024, .f32⟩
  | .local _ .vmem, ⟨6, _⟩ => ⟨S1x1024x100, .f32⟩
  | .local _ .vmem, ⟨7, _⟩ => ⟨S1x1024x100, .f32⟩
  | _, _ => ⟨S64x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x768x32x32_S64x768x1024 : S64x768x32x32.ShapeCasts S64x768x1024
  reducesTo_S100x768_S100_d1 : S100x768.ReducesTo [1] S100
  h_S_ : 0 < S_.numel
  bcast_S100_S100x1_0 : S100.BroadcastsInDim S100x1 (![0] : Fin 1 → Fin S100x1.rank)
  bcast_S_S100x1 : S_.BroadcastsInDim S100x1 (![] : Fin 0 → Fin S100x1.rank)
  bcast_S100x1_S100x768_0_1 : S100x1.BroadcastsInDim S100x768 (![0, 1] : Fin 2 → Fin S100x768.rank)
  transposes_S100x768_S768x100_1_0 : S100x768.Transposes [1, 0] S768x100
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  reduces_S768x1024_S1024 : S768x1024.Reduces [0] S1024
  shapeCasts_S1024_S1x1024 : S1024.ShapeCasts S1x1024
  broadcasts_S1x1024_S768x1024 : S1x1024.Broadcasts S768x1024
  inb_S100x768_S100x768_0_0 : ∀ a, (![0, 0] : Fin 2 → Nat) a + S100x768.size a ≤ S100x768.size a
  h_S100x768 : 0 < S100x768.numel
  shapeCasts_S100x768_S100x768 : S100x768.ShapeCasts S100x768
  bitsLt_bf16_f32 : FTy.bits .bf16 < FTy.bits .f32
  reduces_S100x1024_S1024 : S100x1024.Reduces [0] S1024
  broadcasts_S1x1024_S100x1024 : S1x1024.Broadcasts S100x1024
  inb_S768x100_S768x100_0_0 : ∀ a, (![0, 0] : Fin 2 → Nat) a + S768x100.size a ≤ S768x100.size a
  h_S768x100 : 0 < S768x100.numel
  shapeCasts_S768x100_S768x100 : S768x100.ShapeCasts S768x100
  shapeCasts_S768x1024_S1x768x1024 : S768x1024.ShapeCasts S1x768x1024
  transposes_S100x1024_p1_0_S1024x100 : S100x1024.Transposes [1, 0] S1024x100
  inb_S1x1024x100_S1x1024x100_0_0_0 : ∀ a, (![0, 0, 0] : Fin 3 → Nat) a + S1x1024x100.size a ≤ S1x1024x100.size a
  h_S1x1024x100 : 0 < S1x1024x100.numel
  shapeCasts_S1x1024x100_S1024x100 : S1x1024x100.ShapeCasts S1024x100
  shapeCasts_S1024x100_S1x1024x100 : S1024x100.ShapeCasts S1x1024x100
  shapeCasts_S64x768x1024_S64x768x32x32 : S64x768x1024.ShapeCasts S64x768x32x32
  dot_S100x768_S768x1024_S100x1024_1_0_0_1_n_n_wf : DotDims.WF S100x768 S768x1024 S100x1024 [1] [0] [0] [1] [] []
  dot_S768x100_S100x1024_S768x1024_1_0_0_1_n_n_wf : DotDims.WF S768x100 S100x1024 S768x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S64x768x1024.size a
  hwx0_0 : ∀ i : grid0.Coords, EltTy.bits .f32 = 32 ∨ (Rect.block (s := S64x768x1024) S1x768x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x768.size a ≤ S100x768.size a
  hwx0_1 : ∀ i : grid0.Coords, EltTy.bits .f32 = 32 ∨ (Rect.block (s := S100x768) S100x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x100.size a ≤ S768x100.size a
  hwx0_2 : ∀ i : grid0.Coords, EltTy.bits .f32 = 32 ∨ (Rect.block (s := S768x100) S768x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x1024.size a ≤ S64x768x1024.size a
  hwx0_3 : ∀ i : grid0.Coords, EltTy.bits .f32 = 32 ∨ (Rect.block (s := S64x768x1024) S1x768x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x100.size a ≤ S64x1024x100.size a
  hwx0_4 : ∀ i : grid0.Coords, EltTy.bits .f32 = 32 ∨ (Rect.block (s := S64x1024x100) S1x1024x100.size (cc0_transform_4 i) (hinb0_4 i)).WholeWords (EltTy.packing .f32)

variable [Facts₀]

def dot_S100x768_S768x1024_S100x1024_1_0_0_1_n_n : DotDims S100x768 S768x1024 S100x1024 where
  lhsContracting := [1]
  rhsContracting := [0]
  lhsNonContracting := [0]
  rhsNonContracting := [1]
  lhsBatch := []
  rhsBatch := []
  wf := dot_S100x768_S768x1024_S100x1024_1_0_0_1_n_n_wf
def dot_S768x100_S100x1024_S768x1024_1_0_0_1_n_n : DotDims S768x100 S100x1024 S768x1024 where
  lhsContracting := [1]
  rhsContracting := [0]
  lhsNonContracting := [0]
  rhsNonContracting := [1]
  lhsBatch := []
  rhsBatch := []
  wf := dot_S768x100_S100x1024_S768x1024_1_0_0_1_n_n_wf

abbrev win0_0 : Pipeline.Window sig grid0 :=
  Pipeline.Window.ofSpec (Memref.whole main_v0) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S100x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S768x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x768x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x1024x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x768x32x32 : Shape := ⟨4, ![64, 768, 32, 32]⟩
abbrev S100x768 : Shape := ⟨2, ![100, 768]⟩
abbrev S64x32x32x768 : Shape := ⟨4, ![64, 32, 32, 768]⟩
abbrev S64x1024x768 : Shape := ⟨3, ![64, 1024, 768]⟩
abbrev S_ : Shape := ⟨0, ![]⟩
abbrev S64x1024 : Shape := ⟨2, ![64, 1024]⟩
abbrev S64x1024x1 : Shape := ⟨3, ![64, 1024, 1]⟩
abbrev S100 : Shape := ⟨1, ![100]⟩
abbrev S100x1 : Shape := ⟨2, ![100, 1]⟩
abbrev S64x1024x100 : Shape := ⟨3, ![64, 1024, 100]⟩

abbrev nBuf : Space → Nat
  | .hbm => 62
  | .vmem => 0
  | .smem => 0
  | _ => 0

abbrev bufTy : (tb : Table) → Fin (tcTables nBuf tb) → BufTy
  | .hbm, ⟨0, _⟩ => ⟨S64x768x32x32, .f32⟩
  | .hbm, ⟨1, _⟩ => ⟨S100x768, .f32⟩
  | .hbm, ⟨2, _⟩ => ⟨S64x32x32x768, .f32⟩
  | .hbm, ⟨3, _⟩ => ⟨S64x1024x768, .f32⟩
  | .hbm, ⟨4, _⟩ => ⟨S64x1024x768, .f32⟩
  | .hbm, ⟨5, _⟩ => ⟨S_, .f32⟩
  | .hbm, ⟨6, _⟩ => ⟨S64x1024, .f32⟩
  | .hbm, ⟨7, _⟩ => ⟨S64x1024x1, .f32⟩
  | .hbm, ⟨8, _⟩ => ⟨S64x1024x1, .f32⟩
  | .hbm, ⟨9, _⟩ => ⟨S_, .f32⟩
  | .hbm, ⟨10, _⟩ => ⟨S64x1024x1, .f32⟩
  | .hbm, ⟨11, _⟩ => ⟨S64x1024x1, .f32⟩
  | .hbm, ⟨12, _⟩ => ⟨S64x1024x768, .f32⟩
  | .hbm, ⟨13, _⟩ => ⟨S64x1024x768, .f32⟩
  | .hbm, ⟨14, _⟩ => ⟨S100x768, .f32⟩
  | .hbm, ⟨15, _⟩ => ⟨S_, .f32⟩
  | .hbm, ⟨16, _⟩ => ⟨S100, .f32⟩
  | .hbm, ⟨17, _⟩ => ⟨S100x1, .f32⟩
  | .hbm, ⟨18, _⟩ => ⟨S100x1, .f32⟩
  | .hbm, ⟨19, _⟩ => ⟨S_, .f32⟩
  | .hbm, ⟨20, _⟩ => ⟨S100x1, .f32⟩
  | .hbm, ⟨21, _⟩ => ⟨S100x1, .f32⟩
  | .hbm, ⟨22, _⟩ => ⟨S100x768, .f32⟩
  | .hbm, ⟨23, _⟩ => ⟨S100x768, .f32⟩
  | .hbm, ⟨24, _⟩ => ⟨S64x1024x100, .f32⟩
  | .hbm, ⟨25, _⟩ => ⟨S_, .f32⟩
  | .hbm, ⟨26, _⟩ => ⟨S64x1024, .f32⟩
  | .hbm, ⟨27, _⟩ => ⟨S_, .f32⟩
  | .hbm, ⟨28, _⟩ => ⟨S64x1024, .f32⟩
  | .hbm, ⟨29, _⟩ => ⟨S64x1024, .f32⟩
  | .hbm, ⟨30, _⟩ => ⟨S64x1024x1, .f32⟩
  | .hbm, ⟨31, _⟩ => ⟨S64x1024x100, .f32⟩
  | .hbm, ⟨32, _⟩ => ⟨S64x1024x100, .f32⟩
  | .hbm, ⟨33, _⟩ => ⟨S64x1024x100, .f32⟩
  | .hbm, ⟨34, _⟩ => ⟨S_, .f32⟩
  | .hbm, ⟨35, _⟩ => ⟨S64x1024, .f32⟩
  | .hbm, ⟨36, _⟩ => ⟨S64x1024x1, .f32⟩
  | .hbm, ⟨37, _⟩ => ⟨S64x1024x100, .f32⟩
  | .hbm, ⟨38, _⟩ => ⟨S64x1024x100, .f32⟩
  | .hbm, ⟨39, _⟩ => ⟨S_, .f32⟩
  | .hbm, ⟨40, _⟩ => ⟨S64x1024x100, .f32⟩
  | .hbm, ⟨41, _⟩ => ⟨S64x1024x100, .f32⟩
  | .hbm, ⟨42, _⟩ => ⟨S_, .f32⟩
  | .hbm, ⟨43, _⟩ => ⟨S64x1024x100, .f32⟩
  | .hbm, ⟨44, _⟩ => ⟨S64x1024x100, .f32⟩
  | .hbm, ⟨45, _⟩ => ⟨S64x1024x100, .f32⟩
  | .hbm, ⟨46, _⟩ => ⟨S64x1024x100, .f32⟩
  | .hbm, ⟨47, _⟩ => ⟨S_, .f32⟩
  | .hbm, ⟨48, _⟩ => ⟨S64x1024x100, .f32⟩
  | .hbm, ⟨49, _⟩ => ⟨S64x1024x100, .f32⟩
  | .hbm, ⟨50, _⟩ => ⟨S64x1024x100, .f32⟩
  | .hbm, ⟨51, _⟩ => ⟨S_, .f32⟩
  | .hbm, ⟨52, _⟩ => ⟨S64x1024, .f32⟩
  | .hbm, ⟨53, _⟩ => ⟨S64x1024x1, .f32⟩
  | .hbm, ⟨54, _⟩ => ⟨S_, .f32⟩
  | .hbm, ⟨55, _⟩ => ⟨S64x1024x1, .f32⟩
  | .hbm, ⟨56, _⟩ => ⟨S64x1024x1, .f32⟩
  | .hbm, ⟨57, _⟩ => ⟨S64x1024x100, .f32⟩
  | .hbm, ⟨58, _⟩ => ⟨S64x1024x100, .f32⟩
  | .hbm, ⟨59, _⟩ => ⟨S64x1024x768, .f32⟩
  | .hbm, ⟨60, _⟩ => ⟨S64x32x32x768, .f32⟩
  | .hbm, ⟨61, _⟩ => ⟨S64x768x32x32, .f32⟩
  | _, _ => ⟨S64x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  transposes_S64x768x32x32_S64x32x32x768_0_2_3_1 : S64x768x32x32.Transposes [0, 2, 3, 1] S64x32x32x768
  shapeCasts_S64x32x32x768_S64x1024x768 : S64x32x32x768.ShapeCasts S64x1024x768
  reducesTo_S64x1024x768_S64x1024_d2 : S64x1024x768.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x768_0_1_2 : S64x1024x1.BroadcastsInDim S64x1024x768 (![0, 1, 2] : Fin 3 → Fin S64x1024x768.rank)
  reducesTo_S100x768_S100_d1 : S100x768.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x768_0_1 : S100x1.BroadcastsInDim S100x768 (![0, 1] : Fin 2 → Fin S100x768.rank)
  reducesTo_S64x1024x100_S64x1024_d2 : S64x1024x100.ReducesTo [2] S64x1024
  bcast_S_S64x1024 : S_.BroadcastsInDim S64x1024 (![] : Fin 0 → Fin S64x1024.rank)
  bcast_S64x1024x1_S64x1024x100_0_1_2 : S64x1024x1.BroadcastsInDim S64x1024x100 (![0, 1, 2] : Fin 3 → Fin S64x1024x100.rank)
  bcast_S_S64x1024x100 : S_.BroadcastsInDim S64x1024x100 (![] : Fin 0 → Fin S64x1024x100.rank)
  shapeCasts_S64x1024x768_S64x32x32x768 : S64x1024x768.ShapeCasts S64x32x32x768
  transposes_S64x32x32x768_S64x768x32x32_0_3_1_2 : S64x32x32x768.Transposes [0, 3, 1, 2] S64x768x32x32
  dot_S64x1024x768_S100x768_S64x1024x100_2_1_01_0_n_n_wf : DotDims.WF S64x1024x768 S100x768 S64x1024x100 [2] [1] [0, 1] [0] [] []
  dot_S64x1024x100_S100x768_S64x1024x768_2_0_01_1_n_n_wf : DotDims.WF S64x1024x100 S100x768 S64x1024x768 [2] [0] [0, 1] [1] [] []

variable [Facts₀]

def dot_S64x1024x768_S100x768_S64x1024x100_2_1_01_0_n_n : DotDims S64x1024x768 S100x768 S64x1024x100 where
  lhsContracting := [2]
  rhsContracting := [1]
  lhsNonContracting := [0, 1]
  rhsNonContracting := [0]
  lhsBatch := []
  rhsBatch := []
  wf := dot_S64x1024x768_S100x768_S64x1024x100_2_1_01_0_n_n_wf
def dot_S64x1024x100_S100x768_S64x1024x768_2_0_01_1_n_n : DotDims S64x1024x100 S100x768 S64x1024x768 where
  lhsContracting := [2]
  rhsContracting := [0]
  lhsNonContracting := [0, 1]
  rhsNonContracting := [1]
  lhsBatch := []
  rhsBatch := []
  wf := dot_S64x1024x100_S100x768_S64x1024x768_2_0_01_1_n_n_wf

class Facts : Prop extends Facts₀ where

variable [Facts]
-- ==== Proof.Spec.lean ====
/-
  The mathematics both programs compute, stated once over plain families of extended reals.

  A memory of 100 rows `μ p : Fin 768 → EReal` is addressed by a pixel's channel vector `z : Fin 768 → EReal`:
  both are divided by their Euclidean norm clamped below at the float 1e-12 (`unitize`); the score of row `p` is the
  inner product of the two unit vectors (`scores`); the scores pass a softmax over the 100 rows, taken in its stable
  form — the largest score subtracted before the exponential — (`softmaxWeight`); each weight `w` is hard-shrunk at the
  float 0.01, `max (w − λ) 0 · w / (|w − λ| + ε)` with `ε` the float 1e-8 (`shrink`), and the shrunk weights are
  divided by their sum plus `ε` (`addressWeights`). The pixel is then rebuilt as the weighted sum of the RAW memory
  rows (`readout`).

  `attnArray` and `zhatArray` lay these out as the two result arrays: the weights at (image, pixel, row) with the
  1024 pixels of a 32 × 32 image in row-major order, and the rebuilt image at (image, channel, row, column).
-/
import Idealize.ShloMosaic.PureOps.Ideal
import Idealize.ShloMosaic.PureOps.Ideal.Laws
import Idealize.ShloMosaic.Lib.ValueIdx

noncomputable section

namespace Cert.MemAttn

open Idealize.ShloMosaic Idealize.ShloMosaic.ValueIdx

/-- The Euclidean norm of a family, clamped below at the float 1e-12. -/
def clampedNorm {K : Nat} (x : Fin K → EReal) : EReal :=
  max (Ideal.sqrt (∑ k : Fin K, x k * x k)) (Ideal.ofBits .f32 0x2B8CBCCC#32)

/-- A family divided, entry by entry, by its clamped norm. -/
def unitize {K : Nat} (x : Fin K → EReal) (k : Fin K) : EReal := Ideal.div (x k) (clampedNorm x)

/-- The inner product of each (already normalised) memory row with a (normalised) pixel vector. -/
def scores (mn : Fin 100 → Fin 768 → EReal) (zn : Fin 768 → EReal) (p : Fin 100) : EReal := ∑ c : Fin 768, mn p c * zn c

/-- The largest of 100 scores, as the fold of `max` from −∞. -/
def top (s : Fin 100 → EReal) : EReal := (Finset.univ : Finset (Fin 100)).fold max (Ideal.ofBits .f32 0xFF800000#32) s

/-- The softmax weight of row `p`: `exp (s p − top) / ∑ q, exp (s q − top)`. -/
def softmaxWeight (s : Fin 100 → EReal) (p : Fin 100) : EReal :=
  Ideal.div (Ideal.exp (s p - top s)) (∑ q : Fin 100, Ideal.exp (s q - top s))

/-- Hard shrinkage of one weight at the float 0.01, guarded by the float 1e-8. -/
def shrink (w : EReal) : EReal :=
  Ideal.div (max (w - Ideal.ofBits .f32 0x3C23D70A#32) (Ideal.ofBits .f32 0x00000000#32) * w)
    (max (w - Ideal.ofBits .f32 0x3C23D70A#32) (-(w - Ideal.ofBits .f32 0x3C23D70A#32)) + Ideal.ofBits .f32 0x322BCC77#32)

/-- The shrunk softmax weights renormalised by their sum plus the guard. -/
def addressWeights (s : Fin 100 → EReal) (p : Fin 100) : EReal :=
  Ideal.div (shrink (softmaxWeight s p)) ((∑ q : Fin 100, shrink (softmaxWeight s q)) + Ideal.ofBits .f32 0x322BCC77#32)

/-- The addressing weights of a pixel vector `z` against the memory `μ`. -/
def attention (μ : Fin 100 → Fin 768 → EReal) (z : Fin 768 → EReal) : Fin 100 → EReal :=
  addressWeights (scores (fun p => unitize (μ p)) (unitize z))

/-- Channel `c` of the pixel rebuilt from the raw memory rows. -/
def readout (μ : Fin 100 → Fin 768 → EReal) (z : Fin 768 → EReal) (c : Fin 768) : EReal :=
  ∑ p : Fin 100, μ p c * attention μ z p

/-- The memory array by row and channel. -/
def memRow (x1 : (⟨2, ![100, 768]⟩ : Shape).Idx → EReal) (p : Fin 100) (c : Fin 768) : EReal := x1 (ix2 p c)

/-- The channel vector of one pixel of one image. -/
def pixel (x0 : (⟨4, ![64, 768, 32, 32]⟩ : Shape).Idx → EReal) (b : Fin 64) (h w : Fin 32) (c : Fin 768) : EReal :=
  x0 (ix4 b c h w)

/-- Row and column of the `n`-th pixel of a 32 × 32 image in row-major order. -/
def pixRow (n : Fin 1024) : Fin 32 := ⟨n.val / 32, by have := n.isLt; omega⟩
def pixCol (n : Fin 1024) : Fin 32 := ⟨n.val % 32, Nat.mod_lt _ (by decide)⟩

/-- The weights array: at (image, pixel, row). -/
def attnArray (x0 : (⟨4, ![64, 768, 32, 32]⟩ : Shape).Idx → EReal) (x1 : (⟨2, ![100, 768]⟩ : Shape).Idx → EReal) :
    (⟨3, ![64, 1024, 100]⟩ : Shape).Idx → EReal := fun i =>
  attention (memRow x1) (pixel x0 (i 0) (pixRow (i 1)) (pixCol (i 1))) (i 2)

/-- The rebuilt images: at (image, channel, row, column). -/
def zhatArray (x0 : (⟨4, ![64, 768, 32, 32]⟩ : Shape).Idx → EReal) (x1 : (⟨2, ![100, 768]⟩ : Shape).Idx → EReal) :
    (⟨4, ![64, 768, 32, 32]⟩ : Shape).Idx → EReal := fun i =>
  readout (memRow x1) (pixel x0 (i 0) (i 2) (i 3)) (i 1)

end Cert.MemAttn

end
-- ==== Proof.KernelPay.lean ====
/-
  The kernel body's four pure values read at an index, at the ideal instance.

  The body loads a pixel block `v0` (768 channels × 1024 pixels of one image), the normalised memory `v10`
  (100 × 768) and the transposed raw memory `v39` (768 × 100). Its weights value at (row p, pixel n) is the
  addressing weight of row p for pixel n's channel vector; the rebuilt block at (channel c, pixel n) is the sum over
  the rows of the transposed memory times the weights; the stored weights block is the weights transposed.
-/
import proofs.«159238_j42537356100301_1_alg».proof.Proof.Gen.KernelIdeal.Skeleton
import proofs.«159238_j42537356100301_1_alg».proof.Proof.Spec
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx Cert.MemAttn

/-! ## The two contractions' operand indices, axis by axis

Both contractions are plain matrix products: the left operand's axis 0 and the right operand's axis 1 are kept, the
left's axis 1 and the right's axis 0 are the one contracted axis. -/

theorem lhs_dot_S100x768_S768x1024_S100x1024_1_0_0_1_n_n_0 (i : S100x1024.Idx)
    (q : dot_S100x768_S768x1024_S100x1024_1_0_0_1_n_n.contr.Idx) :
    (dot_S100x768_S768x1024_S100x1024_1_0_0_1_n_n.lhsIdx i q 0).val = (i 0).val := by
  unfold DotDims.lhsIdx
  rw [dif_neg (show ¬(0 : Fin S100x768.rank) ∈ dot_S100x768_S768x1024_S100x1024_1_0_0_1_n_n.lhsBatch by decide),
    dif_pos (show (0 : Fin S100x768.rank) ∈ dot_S100x768_S768x1024_S100x1024_1_0_0_1_n_n.lhsNonContracting by decide)]
  rfl

theorem lhs_dot_S100x768_S768x1024_S100x1024_1_0_0_1_n_n_1 (i : S100x1024.Idx)
    (q : dot_S100x768_S768x1024_S100x1024_1_0_0_1_n_n.contr.Idx) :
    (dot_S100x768_S768x1024_S100x1024_1_0_0_1_n_n.lhsIdx i q 1).val = (q ⟨0, by decide⟩).val :=
  dot_S100x768_S768x1024_S100x1024_1_0_0_1_n_n.lhsIdx_val_of_single rfl i q

theorem rhs_dot_S100x768_S768x1024_S100x1024_1_0_0_1_n_n_0 (i : S100x1024.Idx)
    (q : dot_S100x768_S768x1024_S100x1024_1_0_0_1_n_n.contr.Idx) :
    (dot_S100x768_S768x1024_S100x1024_1_0_0_1_n_n.rhsIdx i q 0).val = (q ⟨0, by decide⟩).val :=
  dot_S100x768_S768x1024_S100x1024_1_0_0_1_n_n.rhsIdx_val_of_single rfl i q

theorem rhs_dot_S100x768_S768x1024_S100x1024_1_0_0_1_n_n_1 (i : S100x1024.Idx)
    (q : dot_S100x768_S768x1024_S100x1024_1_0_0_1_n_n.contr.Idx) :
    (dot_S100x768_S768x1024_S100x1024_1_0_0_1_n_n.rhsIdx i q 1).val = (i 1).val := by
  unfold DotDims.rhsIdx
  rw [dif_neg (show ¬(1 : Fin S768x1024.rank) ∈ dot_S100x768_S768x1024_S100x1024_1_0_0_1_n_n.rhsBatch by decide),
    dif_pos (show (1 : Fin S768x1024.rank) ∈ dot_S100x768_S768x1024_S100x1024_1_0_0_1_n_n.rhsNonContracting by decide)]
  rfl

theorem lhs_dot_S768x100_S100x1024_S768x1024_1_0_0_1_n_n_0 (i : S768x1024.Idx)
    (q : dot_S768x100_S100x1024_S768x1024_1_0_0_1_n_n.contr.Idx) :
    (dot_S768x100_S100x1024_S768x1024_1_0_0_1_n_n.lhsIdx i q 0).val = (i 0).val := by
  unfold DotDims.lhsIdx
  rw [dif_neg (show ¬(0 : Fin S768x100.rank) ∈ dot_S768x100_S100x1024_S768x1024_1_0_0_1_n_n.lhsBatch by decide),
    dif_pos (show (0 : Fin S768x100.rank) ∈ dot_S768x100_S100x1024_S768x1024_1_0_0_1_n_n.lhsNonContracting by decide)]
  rfl

theorem lhs_dot_S768x100_S100x1024_S768x1024_1_0_0_1_n_n_1 (i : S768x1024.Idx)
    (q : dot_S768x100_S100x1024_S768x1024_1_0_0_1_n_n.contr.Idx) :
    (dot_S768x100_S100x1024_S768x1024_1_0_0_1_n_n.lhsIdx i q 1).val = (q ⟨0, by decide⟩).val :=
  dot_S768x100_S100x1024_S768x1024_1_0_0_1_n_n.lhsIdx_val_of_single rfl i q

theorem rhs_dot_S768x100_S100x1024_S768x1024_1_0_0_1_n_n_0 (i : S768x1024.Idx)
    (q : dot_S768x100_S100x1024_S768x1024_1_0_0_1_n_n.contr.Idx) :
    (dot_S768x100_S100x1024_S768x1024_1_0_0_1_n_n.rhsIdx i q 0).val = (q ⟨0, by decide⟩).val :=
  dot_S768x100_S100x1024_S768x1024_1_0_0_1_n_n.rhsIdx_val_of_single rfl i q

theorem rhs_dot_S768x100_S100x1024_S768x1024_1_0_0_1_n_n_1 (i : S768x1024.Idx)
    (q : dot_S768x100_S100x1024_S768x1024_1_0_0_1_n_n.contr.Idx) :
    (dot_S768x100_S100x1024_S768x1024_1_0_0_1_n_n.rhsIdx i q 1).val = (i 1).val := by
  unfold DotDims.rhsIdx
  rw [dif_neg (show ¬(1 : Fin S100x1024.rank) ∈ dot_S768x100_S100x1024_S768x1024_1_0_0_1_n_n.rhsBatch by decide),
    dif_pos (show (1 : Fin S100x1024.rank) ∈ dot_S768x100_S100x1024_S768x1024_1_0_0_1_n_n.rhsNonContracting by decide)]
  rfl

/-! ## The two products read at an index: the sum over the contracted axis's one coordinate -/

/-- Rows times columns over the 768 channels. -/
theorem matmul_scores_apply (a : FVec Ideal S100x768 .bf16) (b : FVec Ideal S768x1024 .bf16) (p : Fin 100) (n : Fin 1024) :
    matmul (F := Ideal) dot_S100x768_S768x1024_S100x1024_1_0_0_1_n_n none a b (constant S100x1024 .f32 0x00000000#32) (ix2 p n)
      = ∑ c : Fin 768, a (ix2 p c) * b (ix2 c n) := by
  simp only [matmul]
  rw [Ideal.matmul_constant_zero_apply,
    ← Equiv.sum_comp (contrEquiv1 dot_S100x768_S768x1024_S100x1024_1_0_0_1_n_n 768 rfl rfl).symm]
  refine Finset.sum_congr rfl fun k _ => ?_
  have hk := contrEquiv1_symm_val dot_S100x768_S768x1024_S100x1024_1_0_0_1_n_n 768 rfl rfl k
  have el : dot_S100x768_S768x1024_S100x1024_1_0_0_1_n_n.lhsIdx (ix2 p n)
      ((contrEquiv1 dot_S100x768_S768x1024_S100x1024_1_0_0_1_n_n 768 rfl rfl).symm k) = ix2 p k :=
    funext fun d => Fin.ext (by
      match d with
      | ⟨0, _⟩ => exact lhs_dot_S100x768_S768x1024_S100x1024_1_0_0_1_n_n_0 _ _
      | ⟨1, _⟩ => exact (lhs_dot_S100x768_S768x1024_S100x1024_1_0_0_1_n_n_1 _ _).trans hk)
  have er : dot_S100x768_S768x1024_S100x1024_1_0_0_1_n_n.rhsIdx (ix2 p n)
      ((contrEquiv1 dot_S100x768_S768x1024_S100x1024_1_0_0_1_n_n 768 rfl rfl).symm k) = ix2 k n :=
    funext fun d => Fin.ext (by
      match d with
      | ⟨0, _⟩ => exact (rhs_dot_S100x768_S768x1024_S100x1024_1_0_0_1_n_n_0 _ _).trans hk
      | ⟨1, _⟩ => exact rhs_dot_S100x768_S768x1024_S100x1024_1_0_0_1_n_n_1 _ _)
  rw [el, er]

/-- Channels times pixels over the 100 memory rows. -/
theorem matmul_readout_apply (a : FVec Ideal S768x100 .bf16) (b : FVec Ideal S100x1024 .bf16) (c : Fin 768) (n : Fin 1024) :
    matmul (F := Ideal) dot_S768x100_S100x1024_S768x1024_1_0_0_1_n_n none a b (constant S768x1024 .f32 0x00000000#32) (ix2 c n)
      = ∑ p : Fin 100, a (ix2 c p) * b (ix2 p n) := by
  simp only [matmul]
  rw [Ideal.matmul_constant_zero_apply,
    ← Equiv.sum_comp (contrEquiv1 dot_S768x100_S100x1024_S768x1024_1_0_0_1_n_n 100 rfl rfl).symm]
  refine Finset.sum_congr rfl fun k _ => ?_
  have hk := contrEquiv1_symm_val dot_S768x100_S100x1024_S768x1024_1_0_0_1_n_n 100 rfl rfl k
  have el : dot_S768x100_S100x1024_S768x1024_1_0_0_1_n_n.lhsIdx (ix2 c n)
      ((contrEquiv1 dot_S768x100_S100x1024_S768x1024_1_0_0_1_n_n 100 rfl rfl).symm k) = ix2 c k :=
    funext fun d => Fin.ext (by
      match d with
      | ⟨0, _⟩ => exact lhs_dot_S768x100_S100x1024_S768x1024_1_0_0_1_n_n_0 _ _
      | ⟨1, _⟩ => exact (lhs_dot_S768x100_S100x1024_S768x1024_1_0_0_1_n_n_1 _ _).trans hk)
  have er : dot_S768x100_S100x1024_S768x1024_1_0_0_1_n_n.rhsIdx (ix2 c n)
      ((contrEquiv1 dot_S768x100_S100x1024_S768x1024_1_0_0_1_n_n 100 rfl rfl).symm k) = ix2 k n :=
    funext fun d => Fin.ext (by
      match d with
      | ⟨0, _⟩ => exact (rhs_dot_S768x100_S100x1024_S768x1024_1_0_0_1_n_n_0 _ _).trans hk
      | ⟨1, _⟩ => exact rhs_dot_S768x100_S100x1024_S768x1024_1_0_0_1_n_n_1 _ _)
  rw [el, er]

/-! ## The reductions over axis 0 read at a lane

The reduced index at lane `n` with the coordinate `k` put back on axis 0 is `(k, n)`: its coordinates compute. -/

/-- A sum over the 768 channels, at pixel `n`. -/
theorem sum_channels_apply (v : FVec Ideal S768x1024 .f32) (n : Fin 1024) :
    multiReduction (F := Ideal) .add [0] S1024 v 0x00000000#32 reduces_S768x1024_S1024 (.inl rfl) rfl (ix1 n)
      = ∑ c : Fin 768, v (ix2 c n) := by
  refine (Ideal.multiReduction_add_single (a := 0) v _ reduces_S768x1024_S1024 _ _ (ix1 n)).trans ?_
  exact Finset.sum_congr rfl fun k _ => congrArg v (funext fun d => Fin.ext (by
    match d with
    | ⟨0, _⟩ => rfl
    | ⟨1, _⟩ => rfl))

/-- A sum over the 100 memory rows, at pixel `n`. -/
theorem sum_rows_apply (v : FVec Ideal S100x1024 .f32) (n : Fin 1024) :
    multiReduction (F := Ideal) .add [0] S1024 v 0x00000000#32 reduces_S100x1024_S1024 (.inl rfl) rfl (ix1 n)
      = ∑ q : Fin 100, v (ix2 q n) := by
  refine (Ideal.multiReduction_add_single (a := 0) v _ reduces_S100x1024_S1024 _ _ (ix1 n)).trans ?_
  exact Finset.sum_congr rfl fun k _ => congrArg v (funext fun d => Fin.ext (by
    match d with
    | ⟨0, _⟩ => rfl
    | ⟨1, _⟩ => rfl))

/-- The largest entry over the 100 memory rows, at pixel `n`: the fold of `max` from −∞. -/
theorem max_rows_apply (v : FVec Ideal S100x1024 .f32) (n : Fin 1024) :
    multiReduction (F := Ideal) .maximumf [0] S1024 v 0xFF800000#32 reduces_S100x1024_S1024 (.inl rfl) rfl (ix1 n)
      = top fun q => v (ix2 q n) := by
  refine (Ideal.multiReduction_maximumf_single (a := 0) v _ reduces_S100x1024_S1024 _ _ (ix1 n)).trans ?_
  unfold top
  exact congrArg (fun f => (Finset.univ : Finset (Fin 100)).fold max (Ideal.ofBits .f32 0xFF800000#32) f)
    (funext fun k => congrArg v (funext fun d => Fin.ext (by
      match d with
      | ⟨0, _⟩ => rfl
      | ⟨1, _⟩ => rfl)))

/-! ## The weights value in stages, as the kernel computes them on whole blocks

Each stage is the kernel's own term over a block variable; `k0_pay3_eq` below says the weights value is their
composition. Every stage works pixel by pixel: its value at (row, pixel `n`) depends on column `n` of its operand only. -/

/-- Every pixel column divided by its Euclidean norm clamped below. -/
def unitCols (x : FVec Ideal S768x1024 .f32) : FVec Ideal S768x1024 .f32 :=
  divf x (broadcastTo S768x1024
    (maximumf
      (sqrt (shapeCast S1x1024
        (multiReduction .add [0] S1024 (mulf x x) 0x00000000#32 reduces_S768x1024_S1024 (.inl rfl) rfl)
        shapeCasts_S1024_S1x1024))
      (broadcast S1x1024 (Scalar.ofBits .f32 0x2B8CBCCC#32)))
    broadcasts_S1x1024_S768x1024)

/-- At (channel `c`, pixel `n`): entry `c` of pixel `n`'s unit channel vector. -/
theorem unitCols_apply (x : FVec Ideal S768x1024 .f32) (c : Fin 768) (n : Fin 1024) :
    unitCols x (ix2 c n) = unitize (fun c' => x (ix2 c' n)) c := by
  show Ideal.div (x (ix2 c n)) (broadcastTo S768x1024 _ broadcasts_S1x1024_S768x1024 (ix2 c n))
    = Ideal.div (x (ix2 c n)) (clampedNorm fun c' => x (ix2 c' n))
  refine congrArg (Ideal.div (x (ix2 c n))) ?_
  refine (broadcastTo_1b_ab_apply _ broadcasts_S1x1024_S768x1024 c n).trans ?_
  show max (Ideal.sqrt (shapeCast S1x1024 _ shapeCasts_S1024_S1x1024 (ix2 (0 : Fin 1) n))) _ = _
  rw [shapeCast_a_1a_apply, sum_channels_apply]
  rfl

/-- The scores block: the normalised memory times the unit pixel columns. -/
def scoreBlock (v0 : Vec Ideal S1x768x1024 .f32) (v10 : Vec Ideal S100x768 .f32) : FVec Ideal S100x1024 .f32 :=
  matmul dot_S100x768_S768x1024_S100x1024_1_0_0_1_n_n none
    (truncf .bf16 (shapeCast S100x768 v10 shapeCasts_S100x768_S100x768) bitsLt_bf16_f32)
    (truncf .bf16 (unitCols (shapeCast S768x1024 v0 shapeCasts_S1x768x1024_S768x1024)) bitsLt_bf16_f32)
    (constant S100x1024 .f32 0x00000000#32)

/-- At (row `q`, pixel `n`): the score of row `q` against pixel `n`'s unit channel vector. -/
theorem scoreBlock_apply (v0 : Vec Ideal S1x768x1024 .f32) (v10 : Vec Ideal S100x768 .f32) (q : Fin 100) (n : Fin 1024) :
    scoreBlock v0 v10 (ix2 q n)
      = scores (fun q c => v10 (ix2 q c)) (unitize fun c => v0 (ix3 (0 : Fin 1) c n)) q := by
  unfold scoreBlock
  refine (matmul_scores_apply _ _ q n).trans ?_
  unfold scores
  refine Finset.sum_congr rfl fun c _ => ?_
  show shapeCast S100x768 v10 shapeCasts_S100x768_S100x768 (ix2 q c)
      * unitCols (shapeCast S768x1024 v0 shapeCasts_S1x768x1024_S768x1024) (ix2 c n) = _
  rw [shapeCast_self, unitCols_apply]
  refine congrArg (fun f : Fin 768 → EReal => v10 (ix2 q c) * unitize f c) (funext fun c' => ?_)
  exact shapeCast_1ab_ab_apply v0 shapeCasts_S1x768x1024_S768x1024 c' n

/-- The exponentials of the stable softmax: every column less its largest entry, exponentiated. -/
def expCols (s : FVec Ideal S100x1024 .f32) : FVec Ideal S100x1024 .f32 :=
  exp (subf s (broadcastTo S100x1024
    (shapeCast S1x1024
      (multiReduction .maximumf [0] S1024 s 0xFF800000#32 reduces_S100x1024_S1024 (.inl rfl) rfl)
      shapeCasts_S1024_S1x1024)
    broadcasts_S1x1024_S100x1024))

theorem expCols_apply (s : FVec Ideal S100x1024 .f32) (q : Fin 100) (n : Fin 1024) :
    expCols s (ix2 q n) = Ideal.exp (s (ix2 q n) - top fun r => s (ix2 r n)) := by
  show Ideal.exp (s (ix2 q n) - broadcastTo S100x1024 _ broadcasts_S1x1024_S100x1024 (ix2 q n)) = _
  rw [broadcastTo_1b_ab_apply, shapeCast_a_1a_apply, max_rows_apply]

/-- The softmax of every column over the 100 rows. -/
def softmaxCols (s : FVec Ideal S100x1024 .f32) : FVec Ideal S100x1024 .f32 :=
  divf (expCols s) (broadcastTo S100x1024
    (shapeCast S1x1024
      (multiReduction .add [0] S1024 (expCols s) 0x00000000#32 reduces_S100x1024_S1024 (.inl rfl) rfl)
      shapeCasts_S1024_S1x1024)
    broadcasts_S1x1024_S100x1024)

theorem softmaxCols_apply (s : FVec Ideal S100x1024 .f32) (q : Fin 100) (n : Fin 1024) :
    softmaxCols s (ix2 q n) = softmaxWeight (fun r => s (ix2 r n)) q := by
  show Ideal.div (expCols s (ix2 q n)) (broadcastTo S100x1024 _ broadcasts_S1x1024_S100x1024 (ix2 q n)) = _
  rw [broadcastTo_1b_ab_apply, shapeCast_a_1a_apply, sum_rows_apply, expCols_apply]
  unfold softmaxWeight
  exact congrArg (Ideal.div _) (Finset.sum_congr rfl fun r _ => expCols_apply s r n)

/-- Hard shrinkage, entry by entry. -/
def shrinkCols (w : FVec Ideal S100x1024 .f32) : FVec Ideal S100x1024 .f32 :=
  divf
    (mulf (maximumf (subf w (broadcast S100x1024 (Scalar.ofBits .f32 0x3C23D70A#32)))
        (broadcast S100x1024 (Scalar.ofBits .f32 0x00000000#32))) w)
    (addf (absf (subf w (broadcast S100x1024 (Scalar.ofBits .f32 0x3C23D70A#32))))
      (broadcast S100x1024 (Scalar.ofBits .f32 0x322BCC77#32)))

theorem shrinkCols_apply (w : FVec Ideal S100x1024 .f32) (i : S100x1024.Idx) : shrinkCols w i = shrink (w i) := rfl

/-- Every column divided by its sum plus the guard. -/
def renormCols (r : FVec Ideal S100x1024 .f32) : FVec Ideal S100x1024 .f32 :=
  divf r (broadcastTo S100x1024
    (addf
      (shapeCast S1x1024
        (multiReduction .add [0] S1024 r 0x00000000#32 reduces_S100x1024_S1024 (.inl rfl) rfl)
        shapeCasts_S1024_S1x1024)
      (broadcast S1x1024 (Scalar.ofBits .f32 0x322BCC77#32)))
    broadcasts_S1x1024_S100x1024)

theorem renormCols_apply (r : FVec Ideal S100x1024 .f32) (p : Fin 100) (n : Fin 1024) :
    renormCols r (ix2 p n)
      = Ideal.div (r (ix2 p n)) ((∑ q : Fin 100, r (ix2 q n)) + Ideal.ofBits .f32 0x322BCC77#32) := by
  show Ideal.div (r (ix2 p n)) (broadcastTo S100x1024 _ broadcasts_S1x1024_S100x1024 (ix2 p n)) = _
  refine congrArg (Ideal.div (r (ix2 p n))) ?_
  refine (broadcastTo_1b_ab_apply _ broadcasts_S1x1024_S100x1024 p n).trans ?_
  show shapeCast S1x1024 _ shapeCasts_S1024_S1x1024 (ix2 (0 : Fin 1) n) + _ = _
  rw [shapeCast_a_1a_apply, sum_rows_apply]
  rfl

/-- The weights value is the four stages in turn. -/
theorem k0_pay3_eq (v0 : Vec Ideal S1x768x1024 .f32) (v10 : Vec Ideal S100x768 .f32) :
    k0_pay3 (F := Ideal) v0 v10 = renormCols (shrinkCols (softmaxCols (scoreBlock v0 v10))) := rfl

/-- The weights value at (row `p`, pixel `n`): the addressing weights of pixel `n`'s unit channel vector against the
    already normalised memory rows. -/
theorem pay3_apply (v0 : Vec Ideal S1x768x1024 .f32) (v10 : Vec Ideal S100x768 .f32) (p : Fin 100) (n : Fin 1024) :
    k0_pay3 (F := Ideal) v0 v10 (ix2 p n)
      = addressWeights (scores (fun q c => v10 (ix2 q c)) (unitize fun c => v0 (ix3 (0 : Fin 1) c n))) p := by
  rw [k0_pay3_eq, renormCols_apply]
  simp only [shrinkCols_apply, softmaxCols_apply, scoreBlock_apply]
  rfl

/-- The transposed memory passes through its cast and its change of format unchanged. -/
theorem pay4_apply (v39 : Vec Ideal S768x100 .f32) (c : Fin 768) (p : Fin 100) :
    k0_pay4 (F := Ideal) v39 (ix2 c p) = v39 (ix2 c p) := by
  unfold k0_pay4
  rw [shapeCast_self]
  rfl

/-- The rebuilt block at (channel `c`, pixel `n`): the sum over the memory rows. -/
theorem pay1_apply (v38 : FVec Ideal S100x1024 .f32) (v41 : FVec Ideal S768x100 .bf16) (u : Fin 1) (c : Fin 768) (n : Fin 1024) :
    k0_pay1 (F := Ideal) v38 v41 (ix3 u c n) = ∑ p : Fin 100, v41 (ix2 c p) * v38 (ix2 p n) := by
  unfold k0_pay1
  refine (shapeCast_ab_1ab_apply _ shapeCasts_S768x1024_S1x768x1024 u c n).trans ?_
  refine (matmul_readout_apply v41 _ c n).trans ?_
  rfl

/-- The stored weights block at (pixel `n`, row `p`) is the weights value at (row `p`, pixel `n`). -/
theorem pay2_apply (v38 : FVec Ideal S100x1024 .f32) (u : Fin 1) (n : Fin 1024) (p : Fin 100) :
    k0_pay2 (F := Ideal) v38 (ix3 u n p) = v38 (ix2 p n) := by
  unfold k0_pay2
  refine (shapeCast_ab_1ab_apply _ shapeCasts_S1024x100_S1x1024x100 u n p).trans ?_
  exact transpose_ix2_apply v38 transposes_S100x1024_p1_0_S1024x100 n p

end Cert.KernelIdeal.Pay

end
-- ==== Proof.KernelHost.lean ====
/-
  What the kernel's region finds in its three input arrays, as functions of the two arguments.

  Before the region the program flattens the two pixel axes of the image array (row-major: pixel n of an image is at
  row n / 32, column n % 32), divides every memory row by its clamped Euclidean norm, and transposes the raw memory.
-/
import proofs.«159238_j42537356100301_1_alg».proof.Proof.Gen.KernelIdeal.Frame
import proofs.«159238_j42537356100301_1_alg».proof.Proof.Spec
import Idealize.ShloMosaic.Lib.ValueLayout
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.MemAttn

variable (m : (ℓ : Loc nD τ sig) → Buf (Elt Ideal) ℓ)

/-- The flattened image array is the image array's shape cast. -/
theorem V_main_v0 (c : Dev nD) :
    (V m c main_v0 : S64x768x1024.Idx → EReal)
      = shapeCast S64x768x1024 (m ((c : Thread nD τ).loc main_arg0)) shapeCasts_S64x768x32x32_S64x768x1024 := by
  show StableHlo.after hostOps0 (fun b => m (c, b)) (Proc.devRef .tc main_v0) = _
  after_results
  rfl

/-- So at (image `b`, channel `k`, pixel `n`) it holds the image array at (b, k, n / 32, n % 32). -/
theorem V_main_v0_apply (c : Dev nD) (b : Fin 64) (k : Fin 768) (n : Fin 1024) :
    (V m c main_v0 : S64x768x1024.Idx → EReal) (ix3 b k n)
      = pixel (m ((c : Thread nD τ).loc main_arg0)) b (pixRow n) (pixCol n) k := by
  rw [V_main_v0]
  unfold pixel pixRow pixCol
  refine shapeCast_apply _ shapeCasts_S64x768x32x32_S64x768x1024 _ _ ?_
  rw [Shape.rowMajor_val_four, Shape.rowMajor_val_three]
  have hn : n.val < 1024 := n.isLt
  show ((b.val * 768 + k.val) * 32 + n.val / 32) * 32 + n.val % 32 = (b.val * 768 + k.val) * 1024 + n.val
  omega

/-- The transposed memory is the memory array's transpose. -/
theorem V_main_v9 (c : Dev nD) :
    (V m c main_v9 : S768x100.Idx → EReal)
      = transpose S768x100 [1, 0] (m ((c : Thread nD τ).loc main_arg1)) transposes_S100x768_S768x100_1_0 := by
  show StableHlo.after hostOps0 (fun b => m (c, b)) (Proc.devRef .tc main_v9) = _
  after_results

theorem V_main_v9_apply (c : Dev nD) (k : Fin 768) (p : Fin 100) :
    (V m c main_v9 : S768x100.Idx → EReal) (ix2 k p) = memRow (m ((c : Thread nD τ).loc main_arg1)) p k := by
  rw [V_main_v9]
  exact transpose_ix2_apply _ transposes_S100x768_S768x100_1_0 k p

/-- A memory array divided row by row by the clamped norm of the row, as the host operations spell it: the squares
    summed along the channels, the root, the clamp against the literal, broadcast back along the channels. -/
theorem rowUnit_apply (x1 : S100x768.Idx → EReal) (p : Fin 100) (k : Fin 768) :
    (Host.divf (F := Ideal) (φ := .f32) x1 (broadcastInDim S100x768 ![0, 1] bcast_S100x1_S100x768_0_1
        (maximumf (Host.sqrt (broadcastInDim S100x1 ![0] bcast_S100_S100x1_0
            (Host.reduceAdd (mulf x1 x1) (constant (F := Ideal) S_ .f32 0x00000000#32) reducesTo_S100x768_S100_d1 h_S_)))
          (broadcastInDim S100x1 ![] bcast_S_S100x1 (constant (F := Ideal) S_ .f32 0x2B8CBCCC#32))))) (ix2 p k)
      = unitize (memRow x1 p) k := by
  unfold unitize clampedNorm memRow
  refine congrArg (Ideal.div (x1 (ix2 p k))) ?_
  refine (broadcastInDim_apply _ bcast_S100x1_S100x768_0_1 _ (ix2 p k) (ix2 p (0 : Fin 1)) (fun a => match a with
    | ⟨0, _⟩ => by show p.val = if (100 : Nat) = 1 then 0 else p.val; rw [if_neg (by decide)]
    | ⟨1, _⟩ => by show 0 = if (1 : Nat) = 1 then 0 else k.val; rw [if_pos rfl])).trans ?_
  refine congrArg₂ max (congrArg Ideal.sqrt ?_) ?_
  · refine (broadcastInDim_apply _ bcast_S100_S100x1_0 _ (ix2 p (0 : Fin 1)) (ix1 p) (fun a => match a with
      | ⟨0, _⟩ => by show p.val = if (100 : Nat) = 1 then 0 else p.val; rw [if_neg (by decide)])).trans ?_
    simp only [Host.reduceAdd, Ideal.hostReduceAdd_def]
    rw [Ideal.hostReduceAdd_single reducesTo_S100x768_S100_d1 (by decide)]
    refine (congrArg (· + _) (Ideal.ofBits_zero_f32)).trans ((zero_add _).trans ?_)
    refine Finset.sum_congr rfl fun j _ => ?_
    have e : (Shape.Reduces.lift (by decide : S100x768.Reduces [1] S100) (ix1 p) j : S100x768.Idx) = ix2 p j :=
      funext fun a => Fin.ext (by match a with | ⟨0, _⟩ => rfl | ⟨1, _⟩ => rfl)
    show x1 _ * x1 _ = _
    rw [e]
    rfl
  · exact broadcastInDim_apply _ bcast_S_S100x1 _ (ix2 p (0 : Fin 1)) ix0 (fun a => a.elim0)

/-- The normalised memory the region finds. -/
theorem V_main_v8_apply (c : Dev nD) (p : Fin 100) (k : Fin 768) :
    (V m c main_v8 : S100x768.Idx → EReal) (ix2 p k) = unitize (memRow (m ((c : Thread nD τ).loc main_arg1)) p) k := by
  refine Eq.trans ?_ (rowUnit_apply (m ((c : Thread nD τ).loc main_arg1)) p k)
  refine congrFun ?_ (ix2 p k)
  show StableHlo.after hostOps0 (fun b => m (c, b)) (Proc.devRef .tc main_v8) = _
  after_results

end Cert.KernelIdeal.HostSide

end
-- ==== Proof.KernelValue.lean ====
/-
  The kernel's two result arrays as functions of the two arguments.

  Grid point t handles image t. Its three input blocks are the image's 768 × 1024 channel-by-pixel slab, the whole
  normalised memory and the whole transposed memory; what it writes back to the rebuilt-image array is, at (channel k,
  pixel n), the readout of pixel n at channel k, and to the weights array, at (pixel n, row p), the addressing weight
  of row p for pixel n. The 64 blocks tile both arrays, so each array ends as one function of the arguments
  (`zflat`, `attnArray`); the program's last operation unflattens the pixel axis of the rebuilt images.
-/
import proofs.«159238_j42537356100301_1_alg».proof.Proof.Gen.KernelIdeal.Frame
import proofs.«159238_j42537356100301_1_alg».proof.Proof.Spec
import proofs.«159238_j42537356100301_1_alg».proof.Proof.KernelPay
import proofs.«159238_j42537356100301_1_alg».proof.Proof.KernelHost
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.MemAttn

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the body leaves in the two output blocks, from the three loaded blocks -/

/-- The rebuilt block: at (channel `j 1`, pixel `j 2`) the sum over the memory rows of the transposed memory times the
    pixel's addressing weights. -/
theorem rebuilt_eq (x0 : Vec Ideal S1x768x1024 .f32) (x1 : Vec Ideal S100x768 .f32) (x2 : Vec Ideal S768x100 .f32) :
    out0_3 (F := Ideal) x0 x1 x2 = fun j : S1x768x1024.Idx =>
      ∑ p : Fin 100, x2 (ix2 (j 1) p)
        * addressWeights (scores (fun q k => x1 (ix2 q k)) (unitize fun k => x0 (ix3 (0 : Fin 1) k (j 2)))) p := by
  unfold out0_3
  rw [View.canon_unit_zero zero3]
  simp only [View.ld_unit_zero (S := S1x768x1024) zero3, View.ld_unit_zero (S := S100x768) zero2,
    View.ld_unit_zero (S := S768x100) zero2]
  funext j
  obtain ⟨u, k, n, rfl⟩ : ∃ (u : Fin 1) (k : Fin 768) (n : Fin 1024), j = ix3 u k n := ⟨j 0, j 1, j 2, eq_ix3 j⟩
  rw [Pay.pay1_apply]
  refine Finset.sum_congr rfl fun p _ => ?_
  rw [Pay.pay4_apply, Pay.pay3_apply]

/-- The weights block: at (pixel `j 1`, row `j 2`) the pixel's addressing weight of that row. -/
theorem weights_eq (x0 : Vec Ideal S1x768x1024 .f32) (x1 : Vec Ideal S100x768 .f32) (x2 : Vec Ideal S768x100 .f32) :
    out0_4 (F := Ideal) x0 x1 x2 = fun j : S1x1024x100.Idx =>
      addressWeights (scores (fun q k => x1 (ix2 q k)) (unitize fun k => x0 (ix3 (0 : Fin 1) k (j 1)))) (j 2) := by
  unfold out0_4
  rw [View.canon_unit_zero zero3]
  simp only [View.ld_unit_zero (S := S1x768x1024) zero3, View.ld_unit_zero (S := S100x768) zero2]
  funext j
  obtain ⟨u, n, p, rfl⟩ : ∃ (u : Fin 1) (n : Fin 1024) (p : Fin 100), j = ix3 u n p := ⟨j 0, j 1, j 2, eq_ix3 j⟩
  rw [Pay.pay2_apply, Pay.pay3_apply]

/-! ## The three input blocks at a grid point -/

/-- The printed index maps over the grid: the image slab and the two output blocks move with the point along the
    image axis, the memory windows stay put. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The image a grid point handles. -/
def img (t : Fin cfg0.N) : Fin 64 := ⟨t.val, lt_of_lt_of_eq t.isLt N_0⟩

/-- The three input blocks at a point, as families of extended reals over their literal shapes. -/
abbrev imageBlock (c : Dev nD) (t : Fin cfg0.N) : S1x768x1024.Idx → EReal := iblk m c 0 t
abbrev unitMemBlock (c : Dev nD) (t : Fin cfg0.N) : S100x768.Idx → EReal := iblk m c 1 t
abbrev memTBlock (c : Dev nD) (t : Fin cfg0.N) : S768x100.Idx → EReal := iblk m c 2 t

/-- The image block at point `t`, at (channel `k`, pixel `n`): image `t`'s pixel `n`. -/
theorem imageBlock_apply (c : Dev nD) (t : Fin cfg0.N) (k : Fin 768) (n : Fin 1024) :
    imageBlock m c t (ix3 (0 : Fin 1) k n)
      = pixel (m ((c : Thread nD τ).loc main_arg0)) (img t) (pixRow n) (pixCol n) k := by
  obtain ⟨e0, e1, e2, -⟩ := idx_facts t
  refine Eq.trans ?_ (HostSide.V_main_v0_apply m c (img t) k n)
  show V m c main_v0 (((cfg0.win 0).blk t).view.emb (ix3 (0 : Fin 1) k n)) = V m c main_v0 (ix3 (img t) k n)
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 768 + 1 * k.val = k.val; omega
  | ⟨2, _⟩ => show win0_0.index t (2 : Fin 3) * 1024 + 1 * n.val = n.val; omega

/-- The normalised-memory block at any point is the whole normalised memory. -/
theorem unitMemBlock_apply (c : Dev nD) (t : Fin cfg0.N) (q : Fin 100) (k : Fin 768) :
    unitMemBlock m c t (ix2 q k) = unitize (memRow (m ((c : Thread nD τ).loc main_arg1)) q) k := by
  obtain ⟨-, -, -, e0, e1, -⟩ := idx_facts t
  refine Eq.trans ?_ (HostSide.V_main_v8_apply m c q k)
  show V m c main_v8 (((cfg0.win 1).blk t).view.emb (ix2 q k)) = V m c main_v8 (ix2 q k)
  refine congrArg (V m c main_v8) (funext fun a => Fin.ext ?_)
  match a with
  | ⟨0, _⟩ => show win0_1.index t (0 : Fin 2) * 100 + 1 * q.val = q.val; omega
  | ⟨1, _⟩ => show win0_1.index t (1 : Fin 2) * 768 + 1 * k.val = k.val; omega

/-- The transposed-memory block at any point is the whole transposed memory. -/
theorem memTBlock_apply (c : Dev nD) (t : Fin cfg0.N) (k : Fin 768) (p : Fin 100) :
    memTBlock m c t (ix2 k p) = memRow (m ((c : Thread nD τ).loc main_arg1)) p k := by
  obtain ⟨-, -, -, -, -, e0, e1, -⟩ := idx_facts t
  refine Eq.trans ?_ (HostSide.V_main_v9_apply m c k p)
  show V m c main_v9 (((cfg0.win 2).blk t).view.emb (ix2 k p)) = V m c main_v9 (ix2 k p)
  refine congrArg (V m c main_v9) (funext fun a => Fin.ext ?_)
  match a with
  | ⟨0, _⟩ => show win0_2.index t (0 : Fin 2) * 768 + 1 * k.val = k.val; omega
  | ⟨1, _⟩ => show win0_2.index t (1 : Fin 2) * 100 + 1 * p.val = p.val; omega

/-! ## What each point writes back is its block of one whole-array function -/

/-- The rebuilt images with the pixel axis still flat: at (image, channel, pixel). -/
def zflat (x0 : S64x768x32x32.Idx → EReal) (x1 : S100x768.Idx → EReal) : S64x768x1024.Idx → EReal := fun i =>
  readout (memRow x1) (pixel x0 (i 0) (pixRow (i 2)) (pixCol (i 2))) (i 1)

/-- The rebuilt block's entry at (channel `k`, pixel `n`) of point `t` is the flat rebuilt array at (image `t`, `k`, `n`). -/
theorem rebuilt_at (c : Dev nD) (t : Fin cfg0.N) (k : Fin 768) (n : Fin 1024) :
    (∑ p : Fin 100, memTBlock m c t (ix2 k p)
      * addressWeights (scores (fun q k' => unitMemBlock m c t (ix2 q k')) (unitize fun k' => imageBlock m c t (ix3 (0 : Fin 1) k' n))) p)
    = zflat (m ((c : Thread nD τ).loc main_arg0)) (m ((c : Thread nD τ).loc main_arg1)) (ix3 (img t) k n) := by
  simp only [imageBlock_apply, unitMemBlock_apply, memTBlock_apply]
  rfl

theorem rebuiltFlushed_eq (c : Dev nD) (t : Fin cfg0.N) :
    (dats m 0 c).flushed 3 t = ((cfg0.win 3).blk t).view.read (Elt Ideal)
      (zflat (m ((c : Thread nD τ).loc main_arg0)) (m ((c : Thread nD τ).loc main_arg1))) := by
  show (cfg0.win 3).cut (grid0.coords t) ((dats m 0 c).after 3 t) = _
  rw [after0_3]
  obtain ⟨-, -, -, -, -, -, -, e0, e1, e2, -⟩ := idx_facts t
  funext j
  refine (congrFun (rebuilt_eq (iblk m c 0 t) (iblk m c 1 t) (iblk m c 2 t)) j).trans ?_
  show (∑ p : Fin 100, memTBlock m c t (ix2 (j 1) p)
      * addressWeights (scores (fun q k => unitMemBlock m c t (ix2 q k)) (unitize fun k => imageBlock m c t (ix3 (0 : Fin 1) k (j 2)))) p)
    = zflat (m ((c : Thread nD τ).loc main_arg0)) (m ((c : Thread nD τ).loc main_arg1)) (((cfg0.win 3).blk t).view.emb j)
  have he : ((cfg0.win 3).blk t).view.emb j = ix3 (img t) (j 1) (j 2) := funext fun a => Fin.ext (by
    match a with
    | ⟨0, _⟩ => show win0_3.index t (0 : Fin 3) * 1 + 1 * (j 0).val = t.val; have hj : (j 0).val < 1 := (j 0).isLt; omega
    | ⟨1, _⟩ => show win0_3.index t (1 : Fin 3) * 768 + 1 * (j 1).val = (j 1).val; omega
    | ⟨2, _⟩ => show win0_3.index t (2 : Fin 3) * 1024 + 1 * (j 2).val = (j 2).val; omega)
  rw [he]
  exact rebuilt_at m c t (j 1) (j 2)

/-- The weights block's entry at (pixel `n`, row `p`) of point `t` is the weights array at (image `t`, `n`, `p`). -/
theorem weights_at (c : Dev nD) (t : Fin cfg0.N) (n : Fin 1024) (p : Fin 100) :
    addressWeights (scores (fun q k' => unitMemBlock m c t (ix2 q k')) (unitize fun k' => imageBlock m c t (ix3 (0 : Fin 1) k' n))) p
    = attnArray (m ((c : Thread nD τ).loc main_arg0)) (m ((c : Thread nD τ).loc main_arg1)) (ix3 (img t) n p) := by
  simp only [imageBlock_apply, unitMemBlock_apply]
  rfl

theorem weightsFlushed_eq (c : Dev nD) (t : Fin cfg0.N) :
    (dats m 0 c).flushed 4 t = ((cfg0.win 4).blk t).view.read (Elt Ideal)
      (attnArray (m ((c : Thread nD τ).loc main_arg0)) (m ((c : Thread nD τ).loc main_arg1))) := by
  show (cfg0.win 4).cut (grid0.coords t) ((dats m 0 c).after 4 t) = _
  rw [after0_4]
  obtain ⟨-, -, -, -, -, -, -, -, -, -, e0, e1, e2⟩ := idx_facts t
  funext j
  refine (congrFun (weights_eq (iblk m c 0 t) (iblk m c 1 t) (iblk m c 2 t)) j).trans ?_
  show addressWeights (scores (fun q k => unitMemBlock m c t (ix2 q k)) (unitize fun k => imageBlock m c t (ix3 (0 : Fin 1) k (j 1)))) (j 2)
    = attnArray (m ((c : Thread nD τ).loc main_arg0)) (m ((c : Thread nD τ).loc main_arg1)) (((cfg0.win 4).blk t).view.emb j)
  have he : ((cfg0.win 4).blk t).view.emb j = ix3 (img t) (j 1) (j 2) := funext fun a => Fin.ext (by
    match a with
    | ⟨0, _⟩ => show win0_4.index t (0 : Fin 3) * 1 + 1 * (j 0).val = t.val; have hj : (j 0).val < 1 := (j 0).isLt; omega
    | ⟨1, _⟩ => show win0_4.index t (1 : Fin 3) * 1024 + 1 * (j 1).val = (j 1).val; omega
    | ⟨2, _⟩ => show win0_4.index t (2 : Fin 3) * 100 + 1 * (j 2).val = (j 2).val; omega)
  rw [he]
  exact weights_at m c t (j 1) (j 2)

/-! ## The blocks tile the two arrays -/

/-- The point of image `b`. -/
def pointOf (b : Fin 64) : Fin cfg0.N := ⟨b.val, lt_of_lt_of_eq b.isLt N_0.symm⟩

theorem mem_rebuiltBlock (t : Fin cfg0.N) (i : S64x768x1024.Idx) :
    i ∈ ((cfg0.win 3).blk t).view.set ↔ ∀ a : Fin 3, win0_3.index t a * S1x768x1024.size a ≤ (i a).val
      ∧ (i a).val < win0_3.index t a * S1x768x1024.size a + S1x768x1024.size a := by
  show i ∈ ((View.whole main_v10_0).slice (win0_3.rect t)).set ↔ _
  rw [View.set_slice_whole, Rect.mem_set_unit]
  exact Iff.rfl

theorem mem_weightsBlock (t : Fin cfg0.N) (i : S64x1024x100.Idx) :
    i ∈ ((cfg0.win 4).blk t).view.set ↔ ∀ a : Fin 3, win0_4.index t a * S1x1024x100.size a ≤ (i a).val
      ∧ (i a).val < win0_4.index t a * S1x1024x100.size a + S1x1024x100.size a := by
  show i ∈ ((View.whole main_v10_1).slice (win0_4.rect t)).set ↔ _
  rw [View.set_slice_whole, Rect.mem_set_unit]
  exact Iff.rfl

/-- Every index of the rebuilt-image array lies in the block of its image's point. -/
theorem rebuilt_cover (i : S64x768x1024.Idx) :
    ∃ t : Fin cfg0.N, (cfg0.win 3).flush t = true ∧ i ∈ ((cfg0.win 3).blk t).view.set := by
  obtain ⟨-, -, -, -, -, -, -, e0, e1, e2, -⟩ := idx_facts (pointOf (i 0))
  refine ⟨pointOf (i 0), flush0_3 _, ?_⟩
  rw [mem_rebuiltBlock]
  have h1 : (i 1).val < 768 := (i 1).isLt
  have h2 : (i 2).val < 1024 := (i 2).isLt
  have ht : (pointOf (i 0)).val = (i 0).val := rfl
  intro a
  match a with
  | ⟨0, _⟩ => show win0_3.index (pointOf (i 0)) (0 : Fin 3) * 1 ≤ (i 0).val ∧ (i 0).val < win0_3.index (pointOf (i 0)) (0 : Fin 3) * 1 + 1; omega
  | ⟨1, _⟩ => show win0_3.index (pointOf (i 0)) (1 : Fin 3) * 768 ≤ (i 1).val ∧ (i 1).val < win0_3.index (pointOf (i 0)) (1 : Fin 3) * 768 + 768; omega
  | ⟨2, _⟩ => show win0_3.index (pointOf (i 0)) (2 : Fin 3) * 1024 ≤ (i 2).val ∧ (i 2).val < win0_3.index (pointOf (i 0)) (2 : Fin 3) * 1024 + 1024; omega

/-- Every index of the weights array lies in the block of its image's point. -/
theorem weights_cover (i : S64x1024x100.Idx) :
    ∃ t : Fin cfg0.N, (cfg0.win 4).flush t = true ∧ i ∈ ((cfg0.win 4).blk t).view.set := by
  obtain ⟨-, -, -, -, -, -, -, -, -, -, e0, e1, e2⟩ := idx_facts (pointOf (i 0))
  refine ⟨pointOf (i 0), flush0_4 _, ?_⟩
  rw [mem_weightsBlock]
  have h1 : (i 1).val < 1024 := (i 1).isLt
  have h2 : (i 2).val < 100 := (i 2).isLt
  have ht : (pointOf (i 0)).val = (i 0).val := rfl
  intro a
  match a with
  | ⟨0, _⟩ => show win0_4.index (pointOf (i 0)) (0 : Fin 3) * 1 ≤ (i 0).val ∧ (i 0).val < win0_4.index (pointOf (i 0)) (0 : Fin 3) * 1 + 1; omega
  | ⟨1, _⟩ => show win0_4.index (pointOf (i 0)) (1 : Fin 3) * 1024 ≤ (i 1).val ∧ (i 1).val < win0_4.index (pointOf (i 0)) (1 : Fin 3) * 1024 + 1024; omega
  | ⟨2, _⟩ => show win0_4.index (pointOf (i 0)) (2 : Fin 3) * 100 ≤ (i 2).val ∧ (i 2).val < win0_4.index (pointOf (i 0)) (2 : Fin 3) * 100 + 100; omega

/-- The rebuilt-image array after the region. -/
theorem rebuilt_final (c : Dev nD) :
    (dats m 0 c).arrAt 3 cfg0.N = zflat (m ((c : Thread nD τ).loc main_arg0)) (m ((c : Thread nD τ).loc main_arg1)) :=
  (dats m 0 c).arrAt_eq_of_cover 3 _ (fun t _ => rebuiltFlushed_eq m c t) rebuilt_cover

/-- The weights array after the region. -/
theorem weights_final (c : Dev nD) :
    (dats m 0 c).arrAt 4 cfg0.N = attnArray (m ((c : Thread nD τ).loc main_arg0)) (m ((c : Thread nD τ).loc main_arg1)) :=
  (dats m 0 c).arrAt_eq_of_cover 4 _ (fun t _ => weightsFlushed_eq m c t) weights_cover

/-! ## The last operation, and the run -/

/-- Unflattening the pixel axis of the flat rebuilt array gives the rebuilt images: pixel h · 32 + w is at row h, column w. -/
theorem unflatten (x0 : S64x768x32x32.Idx → EReal) (x1 : S100x768.Idx → EReal) :
    shapeCast S64x768x32x32 (zflat x0 x1) shapeCasts_S64x768x1024_S64x768x32x32 = zhatArray x0 x1 := by
  funext i
  obtain ⟨b, k, h, w, rfl⟩ : ∃ (b : Fin 64) (k : Fin 768) (h w : Fin 32), i = ix4 b k h w := ⟨i 0, i 1, i 2, i 3, eq_ix4 i⟩
  have hh : h.val < 32 := h.isLt
  have hw : w.val < 32 := w.isLt
  have hn : h.val * 32 + w.val < 1024 := by omega
  refine (shapeCast_apply (zflat x0 x1) shapeCasts_S64x768x1024_S64x768x32x32 (ix4 b k h w) (ix3 b k ⟨h.val * 32 + w.val, hn⟩) ?_).trans ?_
  · rw [Shape.rowMajor_val_three, Shape.rowMajor_val_four]
    show (b.val * 768 + k.val) * 1024 + (h.val * 32 + w.val) = ((b.val * 768 + k.val) * 32 + h.val) * 32 + w.val
    omega
  · have e1 : pixRow ⟨h.val * 32 + w.val, hn⟩ = h := Fin.ext (by show (h.val * 32 + w.val) / 32 = h.val; omega)
    have e2 : pixCol ⟨h.val * 32 + w.val, hn⟩ = w := Fin.ext (by show (h.val * 32 + w.val) % 32 = w.val; omega)
    show readout (memRow x1) (pixel x0 b (pixRow ⟨h.val * 32 + w.val, hn⟩) (pixCol ⟨h.val * 32 + w.val, hn⟩)) k
      = readout (memRow x1) (pixel x0 b h w) k
    rw [e1, e2]

/-- What the program's last operation leaves in its result: the rebuilt images. -/
theorem tail_rebuilt (c : Dev nD) :
    Pipeline.afterTail₀ cfgs (dats m) 0 (V0 m) [hostOps1] c main_v11
      = zhatArray (m ((c : Thread nD τ).loc main_arg0)) (m ((c : Thread nD τ).loc main_arg1)) := by
  unfold Pipeline.afterTail₀
  show StableHlo.after hostOps1 _ (Proc.devRef .tc main_v11) = _
  after_results
  have hw := (Pipeline.withArrays_arr spec0 launch0.win.arr_inj c (V0 m c) (fun w => (dats m 0 c).arrAt w cfg0.N) 3).trans
    (rebuilt_final m c)
  refine Eq.trans ?_ (unflatten (m ((c : Thread nD τ).loc main_arg0)) (m ((c : Thread nD τ).loc main_arg1)))
  exact congrArg (fun X : S64x768x1024.Idx → EReal => shapeCast S64x768x32x32 X shapeCasts_S64x768x1024_S64x768x32x32) hw

/-- Every weakly fair execution of the idealised kernel program terminates with the rebuilt images and the weights at
    the specification's arrays of the arguments, the arguments unchanged. -/
theorem run : θ_run defs (onTc (τ := τ) (main (F := Ideal))) ⟨m, fun _ => 0, ρ⟩ fun r => ∀ c : Dev nD,
      r.2.mem ((c : Thread nD τ).loc main_v11)
        = zhatArray (m ((c : Thread nD τ).loc main_arg0)) (m ((c : Thread nD τ).loc main_arg1))
      ∧ r.2.mem ((c : Thread nD τ).loc main_v10_1)
        = attnArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v11 (Pipeline.mem_restRefs_of main_v11 (by decide) (by decide))).trans (tail_rebuilt m c),
      ((h c).1 4).trans (weights_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's two results, read stage by stage at an index, are the specification's arrays.

  The reference moves the channel axis last and flattens the 32 × 32 pixels row-major, normalises every pixel vector and
  every memory row, takes the scores as a contraction over the channels, the softmax, the shrinkage and the
  renormalisation over the 100 rows, rebuilds every pixel from the raw memory rows and moves the channel axis back.
-/
import proofs.«159238_j42537356100301_1_alg».proof.Proof.Gen.ReferenceIdeal.Read
import proofs.«159238_j42537356100301_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.MemAttn

/-! ## The pixel vectors: transpose, flatten, normalise -/

/-- Pixel `n` of image `b`, channel `c`, of the flattened channel-last array is the input at (b, c, n / 32, n % 32). -/
theorem flat_at (x0 : (⟨S64x768x32x32, .f32⟩ : BufTy).Contents (Elt Ideal)) (b : Fin 64) (n : Fin 1024) (c : Fin 768) :
    val_main_v1 (F := Ideal) x0 (ix3 b n c) = pixel x0 b (pixRow n) (pixCol n) c := by
  rw [val_main_v1_apply, val_main_v0_apply]
  refine congrArg x0 (funext fun a => Fin.ext ?_)
  have hb := b.isLt
  have hn := n.isLt
  have hc := c.isLt
  match a with
  | ⟨0, _⟩ => show ((b.val * 1024 + n.val) * 768 + c.val) / 786432 = b.val; omega
  | ⟨1, _⟩ => show ((b.val * 1024 + n.val) * 768 + c.val) % 768 = c.val; omega
  | ⟨2, _⟩ => show ((b.val * 1024 + n.val) * 768 + c.val) / 24576 % 32 = n.val / 32; omega
  | ⟨3, _⟩ => show ((b.val * 1024 + n.val) * 768 + c.val) / 768 % 32 = n.val % 32; omega

/-- The sum of squares of a pixel vector. -/
theorem sumsq_at (x0 : (⟨S64x768x32x32, .f32⟩ : BufTy).Contents (Elt Ideal)) (b : Fin 64) (n : Fin 1024) :
    val_main_v3 (F := Ideal) x0 (ix2 b n)
      = ∑ k : Fin 768, pixel x0 b (pixRow n) (pixCol n) k * pixel x0 b (pixRow n) (pixCol n) k := by
  rw [val_main_v3_apply]
  show Ideal.ofBits .f32 0x00000000#32 + _ = _
  rw [Ideal.ofBits_zero_f32, zero_add]
  refine Finset.sum_congr rfl fun k _ => ?_
  have e : idx_main_v3 (ix2 b n) k = ix3 b n k := funext fun a => by
    match a with
    | ⟨0, _⟩ => rfl
    | ⟨1, _⟩ => rfl
    | ⟨2, _⟩ => rfl
  rw [e, val_main_v2_apply, flat_at]
  rfl

/-- The clamped norm of a pixel vector, broadcast along the channels. -/
theorem norm_at (x0 : (⟨S64x768x32x32, .f32⟩ : BufTy).Contents (Elt Ideal)) (b : Fin 64) (n : Fin 1024) (c : Fin 768) :
    val_main_v8 (F := Ideal) x0 (ix3 b n c) = clampedNorm (pixel x0 b (pixRow n) (pixCol n)) := by
  rw [val_main_v8_apply, val_main_v7_apply, val_main_v5_apply, val_main_v4_apply, val_main_v6_apply]
  have e : idx_main_v4 (idx_main_v8 (ix3 b n c)) = ix2 b n := funext fun a => by
    match a with
    | ⟨0, _⟩ => rfl
    | ⟨1, _⟩ => rfl
  rw [e, sumsq_at]
  rfl

/-- The normalised pixel vector. -/
theorem unit_at (x0 : (⟨S64x768x32x32, .f32⟩ : BufTy).Contents (Elt Ideal)) (b : Fin 64) (n : Fin 1024) (c : Fin 768) :
    val_main_v9 (F := Ideal) x0 (ix3 b n c) = unitize (pixel x0 b (pixRow n) (pixCol n)) c := by
  rw [val_main_v9_apply, flat_at, norm_at]
  rfl

/-! ## The memory rows, normalised -/

/-- The sum of squares of a memory row. -/
theorem memSumsq_at (x1 : (⟨S100x768, .f32⟩ : BufTy).Contents (Elt Ideal)) (p : Fin 100) :
    val_main_v11 (F := Ideal) x1 (ix1 p) = ∑ k : Fin 768, memRow x1 p k * memRow x1 p k := by
  rw [val_main_v11_apply]
  show Ideal.ofBits .f32 0x00000000#32 + _ = _
  rw [Ideal.ofBits_zero_f32, zero_add]
  refine Finset.sum_congr rfl fun k _ => ?_
  have e : idx_main_v11 (ix1 p) k = ix2 p k := funext fun a => by
    match a with
    | ⟨0, _⟩ => rfl
    | ⟨1, _⟩ => rfl
  rw [e, val_main_v10_apply]
  rfl

/-- The clamped norm of a memory row, broadcast along the channels. -/
theorem memNorm_at (x1 : (⟨S100x768, .f32⟩ : BufTy).Contents (Elt Ideal)) (p : Fin 100) (c : Fin 768) :
    val_main_v16 (F := Ideal) x1 (ix2 p c) = clampedNorm (memRow x1 p) := by
  rw [val_main_v16_apply, val_main_v15_apply, val_main_v13_apply, val_main_v12_apply, val_main_v14_apply]
  have e : idx_main_v12 (idx_main_v16 (ix2 p c)) = ix1 p := funext fun a => by
    match a with
    | ⟨0, _⟩ => rfl
  rw [e, memSumsq_at]
  rfl

/-- The normalised memory row. -/
theorem memUnit_at (x1 : (⟨S100x768, .f32⟩ : BufTy).Contents (Elt Ideal)) (p : Fin 100) (c : Fin 768) :
    val_main_v17 (F := Ideal) x1 (ix2 p c) = unitize (memRow x1 p) c := by
  rw [val_main_v17_apply, memNorm_at]
  rfl

/-! ## The scores and their largest -/

/-- The score of row `p` against pixel `n` of image `b`: the contraction over the channels, its two factors exchanged. -/
theorem scores_at (x0 : (⟨S64x768x32x32, .f32⟩ : BufTy).Contents (Elt Ideal)) (x1 : (⟨S100x768, .f32⟩ : BufTy).Contents (Elt Ideal))
    (b : Fin 64) (n : Fin 1024) (p : Fin 100) :
    val_main_v18 (F := Ideal) x0 x1 (ix3 b n p)
      = scores (fun q => unitize (memRow x1 q)) (unitize (pixel x0 b (pixRow n) (pixCol n))) p := by
  rw [val_main_v18_apply]
  refine Finset.sum_congr rfl fun k _ => ?_
  have el : lidx_main_v18 (ix3 b n p) k = ix3 b n k := funext fun a => by
    match a with
    | ⟨0, _⟩ => rfl
    | ⟨1, _⟩ => rfl
    | ⟨2, _⟩ => rfl
  have er : ridx_main_v18 (ix3 b n p) k = ix2 p k := funext fun a => by
    match a with
    | ⟨0, _⟩ => rfl
    | ⟨1, _⟩ => rfl
  rw [el, er, unit_at, memUnit_at]
  exact mul_comm _ _

/-- The reduced index (b, n) with row `k` put back on the last axis is (b, n, k). -/
theorem lift_rows (h : S64x1024x100.Reduces [2] S64x1024) (b : Fin 64) (n : Fin 1024) (k : Fin (S64x1024x100.size 2)) :
    h.lift (ix2 b n) k = ix3 b n (⟨k.val, k.isLt⟩ : Fin 100) := by
  funext c; apply Fin.ext
  fin_cases c <;> rfl

/-- From −∞ the maximum with anything is that thing. -/
theorem max_negInf (y : EReal) : max (Ideal.ofBits .f32 0xFF800000#32) y = y := by
  simp [Ideal.ofBits, Ideal.ieee]

/-- The host's maximum over the 100 rows, from −∞, is the largest score. -/
theorem rowMax_at (x0 : (⟨S64x768x32x32, .f32⟩ : BufTy).Contents (Elt Ideal)) (x1 : (⟨S100x768, .f32⟩ : BufTy).Contents (Elt Ideal))
    (b : Fin 64) (n : Fin 1024) :
    val_main_v19 (F := Ideal) x0 x1 (ix2 b n)
      = top (scores (fun q => unitize (memRow x1 q)) (unitize (pixel x0 b (pixRow n) (pixCol n)))) := by
  have h : S64x1024x100.Reduces [2] S64x1024 := by decide
  unfold val_main_v19
  rw [Host.reduce_eq_fold_single FloatOps.maximumf _ _ reducesTo_S64x1024x100_S64x1024_d2 h h_S_]
  have hf : (val_main_v18 (F := Ideal) x0 x1 ∘ h.lift (ix2 b n))
      = scores (fun q => unitize (memRow x1 q)) (unitize (pixel x0 b (pixRow n) (pixCol n))) :=
    funext fun k => by
      show val_main_v18 (F := Ideal) x0 x1 (h.lift (ix2 b n) k) = _
      rw [lift_rows, scores_at]
      rfl
  rw [hf]
  rfl

/-- The largest score, once more against −∞ and broadcast along the rows. -/
theorem top_at (x0 : (⟨S64x768x32x32, .f32⟩ : BufTy).Contents (Elt Ideal)) (x1 : (⟨S100x768, .f32⟩ : BufTy).Contents (Elt Ideal))
    (b : Fin 64) (n : Fin 1024) (p : Fin 100) :
    val_main_v23 (F := Ideal) x0 x1 (ix3 b n p)
      = top (scores (fun q => unitize (memRow x1 q)) (unitize (pixel x0 b (pixRow n) (pixCol n)))) := by
  rw [val_main_v23_apply, val_main_v22_apply, val_main_v21_apply, val_main_v20_apply]
  have e : idx_main_v22 (idx_main_v23 (ix3 b n p)) = ix2 b n := funext fun a => by
    match a with
    | ⟨0, _⟩ => rfl
    | ⟨1, _⟩ => rfl
  rw [e, rowMax_at]
  exact max_negInf _

/-! ## The softmax -/

/-- The exponential of a score less the largest. -/
theorem exp_at (x0 : (⟨S64x768x32x32, .f32⟩ : BufTy).Contents (Elt Ideal)) (x1 : (⟨S100x768, .f32⟩ : BufTy).Contents (Elt Ideal))
    (b : Fin 64) (n : Fin 1024) (p : Fin 100) :
    val_main_v25 (F := Ideal) x0 x1 (ix3 b n p)
      = Ideal.exp (scores (fun q => unitize (memRow x1 q)) (unitize (pixel x0 b (pixRow n) (pixCol n))) p
          - top (scores (fun q => unitize (memRow x1 q)) (unitize (pixel x0 b (pixRow n) (pixCol n))))) := by
  rw [val_main_v25_apply, val_main_v24_apply, scores_at, top_at]
  rfl

/-- The sum of the exponentials over the 100 rows, broadcast along the rows. -/
theorem expSum_at (x0 : (⟨S64x768x32x32, .f32⟩ : BufTy).Contents (Elt Ideal)) (x1 : (⟨S100x768, .f32⟩ : BufTy).Contents (Elt Ideal))
    (b : Fin 64) (n : Fin 1024) (p : Fin 100) :
    val_main_v28 (F := Ideal) x0 x1 (ix3 b n p)
      = ∑ q : Fin 100, Ideal.exp (scores (fun q => unitize (memRow x1 q)) (unitize (pixel x0 b (pixRow n) (pixCol n))) q
          - top (scores (fun q => unitize (memRow x1 q)) (unitize (pixel x0 b (pixRow n) (pixCol n))))) := by
  rw [val_main_v28_apply, val_main_v27_apply, val_main_v26_apply]
  show Ideal.ofBits .f32 0x00000000#32 + _ = _
  rw [Ideal.ofBits_zero_f32, zero_add]
  refine Finset.sum_congr rfl fun q _ => ?_
  have e : idx_main_v26 (idx_main_v27 (idx_main_v28 (ix3 b n p))) q = ix3 b n q := funext fun a => by
    match a with
    | ⟨0, _⟩ => rfl
    | ⟨1, _⟩ => rfl
    | ⟨2, _⟩ => rfl
  rw [e, exp_at]

/-- The softmax weight. -/
theorem softmax_at (x0 : (⟨S64x768x32x32, .f32⟩ : BufTy).Contents (Elt Ideal)) (x1 : (⟨S100x768, .f32⟩ : BufTy).Contents (Elt Ideal))
    (b : Fin 64) (n : Fin 1024) (p : Fin 100) :
    val_main_v29 (F := Ideal) x0 x1 (ix3 b n p)
      = softmaxWeight (scores (fun q => unitize (memRow x1 q)) (unitize (pixel x0 b (pixRow n) (pixCol n)))) p := by
  rw [val_main_v29_apply, exp_at, expSum_at]
  rfl

/-! ## Hard shrinkage and renormalisation -/

/-- The shrunk softmax weight. -/
theorem shrink_at (x0 : (⟨S64x768x32x32, .f32⟩ : BufTy).Contents (Elt Ideal)) (x1 : (⟨S100x768, .f32⟩ : BufTy).Contents (Elt Ideal))
    (b : Fin 64) (n : Fin 1024) (p : Fin 100) :
    val_main_v37 (F := Ideal) x0 x1 (ix3 b n p)
      = shrink (softmaxWeight (scores (fun q => unitize (memRow x1 q)) (unitize (pixel x0 b (pixRow n) (pixCol n)))) p) := by
  rw [val_main_v37_apply, val_main_v33_apply, val_main_v36_apply, val_main_v32_apply, val_main_v34_apply,
    val_main_v31_apply, val_main_v30_apply, val_main_v35_apply, val_main_call0_v0_apply, softmax_at]
  rfl

/-- The sum of the shrunk weights plus the guard, broadcast along the rows. -/
theorem shrinkSum_at (x0 : (⟨S64x768x32x32, .f32⟩ : BufTy).Contents (Elt Ideal)) (x1 : (⟨S100x768, .f32⟩ : BufTy).Contents (Elt Ideal))
    (b : Fin 64) (n : Fin 1024) (p : Fin 100) :
    val_main_v42 (F := Ideal) x0 x1 (ix3 b n p)
      = (∑ q : Fin 100, shrink (softmaxWeight (scores (fun q => unitize (memRow x1 q)) (unitize (pixel x0 b (pixRow n) (pixCol n)))) q))
          + Ideal.ofBits .f32 0x322BCC77#32 := by
  rw [val_main_v42_apply, val_main_v41_apply, val_main_v39_apply, val_main_v38_apply, val_main_v40_apply]
  show (Ideal.ofBits .f32 0x00000000#32 + _) + Ideal.ofBits .f32 0x322BCC77#32 = _
  rw [Ideal.ofBits_zero_f32, zero_add]
  refine congrArg (· + Ideal.ofBits .f32 0x322BCC77#32) (Finset.sum_congr rfl fun q _ => ?_)
  have e : idx_main_v38 (idx_main_v39 (idx_main_v42 (ix3 b n p))) q = ix3 b n q := funext fun a => by
    match a with
    | ⟨0, _⟩ => rfl
    | ⟨1, _⟩ => rfl
    | ⟨2, _⟩ => rfl
  rw [e, shrink_at]

/-- The addressing weight of row `p` for pixel `n` of image `b`. -/
theorem weights_at (x0 : (⟨S64x768x32x32, .f32⟩ : BufTy).Contents (Elt Ideal)) (x1 : (⟨S100x768, .f32⟩ : BufTy).Contents (Elt Ideal))
    (b : Fin 64) (n : Fin 1024) (p : Fin 100) :
    val_main_v43 (F := Ideal) x0 x1 (ix3 b n p) = attention (memRow x1) (pixel x0 b (pixRow n) (pixCol n)) p := by
  rw [val_main_v43_apply, shrink_at, shrinkSum_at]
  rfl

/-! ## The readout, its reshape and the transpose back -/

/-- Pixel `h * 32 + w` of a 32 × 32 image sits in row `h` … -/
theorem pixRow_mk (h w : Fin 32) (hn : h.val * 32 + w.val < 1024) : pixRow ⟨h.val * 32 + w.val, hn⟩ = h :=
  Fin.ext (by have := w.isLt; show (h.val * 32 + w.val) / 32 = h.val; omega)
/-- … and column `w`. -/
theorem pixCol_mk (h w : Fin 32) (hn : h.val * 32 + w.val < 1024) : pixCol ⟨h.val * 32 + w.val, hn⟩ = w :=
  Fin.ext (by have := w.isLt; show (h.val * 32 + w.val) % 32 = w.val; omega)

/-- Channel `c` of the rebuilt pixel `n` of image `b`: the contraction over the rows, its two factors exchanged. -/
theorem readout_at (x0 : (⟨S64x768x32x32, .f32⟩ : BufTy).Contents (Elt Ideal)) (x1 : (⟨S100x768, .f32⟩ : BufTy).Contents (Elt Ideal))
    (b : Fin 64) (n : Fin 1024) (c : Fin 768) :
    val_main_v44 (F := Ideal) x0 x1 (ix3 b n c) = readout (memRow x1) (pixel x0 b (pixRow n) (pixCol n)) c := by
  rw [val_main_v44_apply]
  refine Finset.sum_congr rfl fun k _ => ?_
  have el : lidx_main_v44 (ix3 b n c) k = ix3 b n k := funext fun a => by
    match a with
    | ⟨0, _⟩ => rfl
    | ⟨1, _⟩ => rfl
    | ⟨2, _⟩ => rfl
  have er : ridx_main_v44 (ix3 b n c) k = ix2 k c := funext fun a => by
    match a with
    | ⟨0, _⟩ => rfl
    | ⟨1, _⟩ => rfl
  rw [el, er, weights_at]
  exact mul_comm _ _

/-- The rebuilt image at (image, channel, row, column). -/
theorem image_at (x0 : (⟨S64x768x32x32, .f32⟩ : BufTy).Contents (Elt Ideal)) (x1 : (⟨S100x768, .f32⟩ : BufTy).Contents (Elt Ideal))
    (b : Fin 64) (c : Fin 768) (h w : Fin 32) :
    val_main_v46 (F := Ideal) x0 x1 (ix4 b c h w) = readout (memRow x1) (pixel x0 b h w) c := by
  have hh := h.isLt
  have hw := w.isLt
  have hn : h.val * 32 + w.val < 1024 := by omega
  rw [val_main_v46_apply, val_main_v45_apply]
  have e : idx_main_v45 (idx_main_v46 (ix4 b c h w)) = ix3 b (⟨h.val * 32 + w.val, hn⟩ : Fin 1024) c :=
    funext fun a => Fin.ext (by
      have hb := b.isLt
      have hc := c.isLt
      match a with
      | ⟨0, _⟩ => show (((b.val * 32 + h.val) * 32 + w.val) * 768 + c.val) / 786432 = b.val; omega
      | ⟨1, _⟩ => show (((b.val * 32 + h.val) * 32 + w.val) * 768 + c.val) / 768 % 1024 = h.val * 32 + w.val; omega
      | ⟨2, _⟩ => show (((b.val * 32 + h.val) * 32 + w.val) * 768 + c.val) % 768 = c.val; omega)
  rw [e, readout_at, pixRow_mk, pixCol_mk]

/-- The reference's weights result is the specification's weights array. -/
theorem attn_eq (x0 : (⟨S64x768x32x32, .f32⟩ : BufTy).Contents (Elt Ideal)) (x1 : (⟨S100x768, .f32⟩ : BufTy).Contents (Elt Ideal)) :
    val_main_v43 (F := Ideal) x0 x1 = attnArray x0 x1 := by
  funext i
  obtain ⟨b, n, p, rfl⟩ : ∃ b n p, i = ix3 b n p := ⟨i 0, i 1, i 2, eq_ix3 i⟩
  exact weights_at x0 x1 b n p

/-- The reference's rebuilt images are the specification's. -/
theorem zhat_eq (x0 : (⟨S64x768x32x32, .f32⟩ : BufTy).Contents (Elt Ideal)) (x1 : (⟨S100x768, .f32⟩ : BufTy).Contents (Elt Ideal)) :
    val_main_v46 (F := Ideal) x0 x1 = zhatArray x0 x1 := by
  funext i
  obtain ⟨b, c, h, w, rfl⟩ : ∃ b c h w, i = ix4 b c h w := ⟨i 0, i 1, i 2, i 3, eq_ix4 i⟩
  exact image_at x0 x1 b c h w

end Cert.ReferenceIdeal.RefValue

end
-- ==== Proof.lean ====
/-
  The kernel — a Pallas call over the 64 images, each grid point normalising its image's 1024 pixel vectors,
  scoring them against the 100 normalised memory rows, passing the scores through a softmax, a hard shrinkage and a
  renormalisation, and rebuilding every pixel from the raw memory rows — against the jnp reference, which does the same
  with the channel axis moved last. Over the extended reals the two compute one function of the image array and the
  memory: the per-pixel mathematics is `Cert.MemAttn` (Proof/Spec.lean); the kernel's two result arrays are read off
  its run block by block (Proof/KernelValue.lean, over the body's values in Proof/KernelPay.lean and the arrays the
  region finds in Proof/KernelHost.lean); the reference's are read stage by stage (Proof/RefValue.lean). The only algebra
  between the two texts is the commutativity of the product inside the two contractions, so the precondition is never
  opened. The idealisation rewrote nothing, so `preserves` is trivial.
-/
import proofs.«159238_j42537356100301_1_alg».proof.Defs
import proofs.«159238_j42537356100301_1_alg».proof.Proof.Gen.Kernel
import proofs.«159238_j42537356100301_1_alg».proof.Proof.Gen.Kernel.Skeleton
import proofs.«159238_j42537356100301_1_alg».proof.Proof.Gen.Kernel.Launch
import proofs.«159238_j42537356100301_1_alg».proof.Proof.Gen.Kernel.Points
import proofs.«159238_j42537356100301_1_alg».proof.Proof.Gen.Kernel.Frame
import proofs.«159238_j42537356100301_1_alg».proof.Proof.Gen.KernelIdeal
import proofs.«159238_j42537356100301_1_alg».proof.Proof.Gen.KernelIdeal.Skeleton
import proofs.«159238_j42537356100301_1_alg».proof.Proof.Gen.KernelIdeal.Launch
import proofs.«159238_j42537356100301_1_alg».proof.Proof.Gen.KernelIdeal.Points
import proofs.«159238_j42537356100301_1_alg».proof.Proof.Gen.KernelIdeal.Frame
import proofs.«159238_j42537356100301_1_alg».proof.Proof.Gen.ReferenceIdeal
import proofs.«159238_j42537356100301_1_alg».proof.Proof.Gen.Pre_finite_inputs
import proofs.«159238_j42537356100301_1_alg».proof.Proof.Gen.ReferenceIdeal.Run
import proofs.«159238_j42537356100301_1_alg».proof.Proof.Gen.ReferenceIdeal.Read
import proofs.«159238_j42537356100301_1_alg».proof.Proof.KernelValue
import proofs.«159238_j42537356100301_1_alg».proof.Proof.RefValue
import Idealize.ShloMosaic.Adequacy
import Idealize.ShloMosaic.Init

noncomputable section

namespace Cert.Proof

open Idealize.ShloMosaic Idealize.SL.Sem Cert.MemAttn

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the rebuilt images at `zhatArray` and the weights at `attnArray` of the arguments, which
    agree. -/
theorem algebraic : Cert.algebraic_KernelIdeal_ReferenceIdeal := by
  intro m ρ m' ρ' _ hagree
  refine ⟨fun c => zhatArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => attnArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v46_eq, Cert.ReferenceIdeal.RefValue.zhat_eq, (hagree c).1, (hagree c).2]
  · rw [(h c).2.1, Cert.ReferenceIdeal.Read.val_main_v43_eq, Cert.ReferenceIdeal.RefValue.attn_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
